-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S10000x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S10000x128 .f32) (main_arg1 : FVec F S10000x10000 .f32) (main_arg2 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩

abbrev nBuf : Space → Nat
  | .hbm => 6
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .bf16⟩
  | .hbm, ⟨4, _⟩ => ⟨S10000x128, .bf16⟩
  | .hbm, ⟨5, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S10000x128, .bf16⟩
  | .local _ .vmem, ⟨3, _⟩ => ⟨S10000x128, .bf16⟩
  | .local _ .vmem, ⟨4, _⟩ => ⟨S400x10000, .f32⟩
  | .local _ .vmem, ⟨5, _⟩ => ⟨S400x10000, .f32⟩
  | .local _ .vmem, ⟨6, _⟩ => ⟨S10000x128, .bf16⟩
  | .local _ .vmem, ⟨7, _⟩ => ⟨S10000x128, .bf16⟩
  | .local _ .vmem, ⟨8, _⟩ => ⟨S400x128, .f32⟩
  | .local _ .vmem, ⟨9, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S10000x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S10000x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S10000x128_S10000x128 : S10000x128.ShapeCasts S10000x128
  inb_S400x128_S400x128_0_0 : ∀ a, (![0, 0] : Fin 2 → Nat) a + S400x128.size a ≤ S400x128.size a
  h_S400x128 : 0 < S400x128.numel
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .bf16 = 32 ∨ (Rect.block (s := S10000x128) S10000x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x128.size a ≤ S10000x128.size a
  hwx1_3 : ∀ i : grid1.Coords, EltTy.bits .f32 = 32 ∨ (Rect.block (s := S10000x128) S400x128.size (cc1_transform_3 i) (hinb1_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0_0) true false (stage0_2 0) (sem0_2 0) (Memref.isWhole_whole _) (hstage0_2 0)

abbrev win0_3 : Pipeline.Window sig grid0 :=
  Pipeline.Window.whole (Memref.whole main_v0_1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S400x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩

abbrev nBuf : Space → Nat
  | .hbm => 5
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S10000x128, .f32⟩
  | .hbm, ⟨4, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.SupportRegion.lean ====
/-
  The first region (no grid: one point, every window's block the whole array).

  Each input block is the whole input array and each output block the whole output array, so after the region the two
  output arrays hold the body's two stored values computed from the whole X and the whole W: the product X · W
  narrowed, and the product minus itself narrowed.
-/
import proofs.«122083_g64776696758729_cont_9to1_m_1304_10_alg».proof.Proof.Gen.KernelIdeal.Frame
import Idealize.ShloMosaic.Lib.Pipeline.Value

set_option maxRecDepth 16384

noncomputable section

namespace Cert.KernelIdeal.SupportRegion

open Cert.KernelIdeal Cert.KernelIdeal.Gen Idealize.ShloMosaic Idealize.ShloMosaic.TcCoe Idealize.SL.Sem
open Idealize.ShloMosaic.Pipeline (Dat Cfg Window)

variable {F : FTy → Type} [FloatOps F]
-- the buffers' contents when the region is entered
variable (V : (c : Dev nD) → (b : Ref sig .tc) → Buf (Elt F) ((c : Thread nD τ).loc b))

theorem origin : (![0, 0] : Fin 2 → Nat) = fun _ => 0 := funext fun a => by fin_cases a <;> rfl

/-- With no grid every window sits at block index 0 on both axes. -/
theorem index_zero : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The block of X at the one point is X. -/
theorem xblock_eq (c : Dev nD) (t : Fin cfg0.N) : (iblk0 V c 0 t : Vec F S10000x128 .f32) = V c main_arg0 := by
  funext j
  show V c main_arg0 (((cfg0.win 0).blk t).view.emb j) = V c main_arg0 j
  refine congrArg _ ?_
  obtain ⟨e0, e1, -⟩ := index_zero t
  funext a; apply Fin.ext
  match a with
  | ⟨0, _⟩ => show win0_0.index t (0 : Fin 2) * 10000 + 1 * (j 0).val = (j 0).val; omega
  | ⟨1, _⟩ => show win0_0.index t (1 : Fin 2) * 128 + 1 * (j 1).val = (j 1).val; omega

/-- The block of W at the one point is W. -/
theorem wblock_eq (c : Dev nD) (t : Fin cfg0.N) : (iblk0 V c 1 t : Vec F S128x128 .f32) = V c main_arg2 := by
  funext j
  show V c main_arg2 (((cfg0.win 1).blk t).view.emb j) = V c main_arg2 j
  refine congrArg _ ?_
  obtain ⟨-, -, e0, e1, -⟩ := index_zero t
  funext a; apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- What the point writes back to the first output is the first stored value of the whole X and W, read through the block. -/
theorem flushed_hi (c : Dev nD) (t : Fin cfg0.N) :
    (dat0 V c).flushed 2 t = ((cfg0.win 2).blk t).view.read (Elt F) (k0_pay2 (V c main_arg0) (V c main_arg2)) := by
  show (cfg0.win 2).cut (grid0.coords t) ((dat0 V c).after 2 t) = _
  rw [after0_2]
  unfold out0_2
  rw [View.canon_unit_zero origin]
  simp only [View.ld_unit_zero (S := S10000x128) origin, View.ld_unit_zero (S := S128x128) origin]
  rw [xblock_eq V c t, wblock_eq V c t]
  funext j
  show k0_pay2 (V c main_arg0) (V c main_arg2) j = k0_pay2 (V c main_arg0) (V c main_arg2) (((cfg0.win 2).blk t).view.emb j)
  refine congrArg _ ?_
  obtain ⟨-, -, -, -, e0, e1, -⟩ := index_zero t
  funext a; apply Fin.ext
  match a with
  | ⟨0, _⟩ => show (j 0).val = win0_2.index t (0 : Fin 2) * 10000 + 1 * (j 0).val; omega
  | ⟨1, _⟩ => show (j 1).val = win0_2.index t (1 : Fin 2) * 128 + 1 * (j 1).val; omega

/-- The same for the second output. -/
theorem flushed_lo (c : Dev nD) (t : Fin cfg0.N) :
    (dat0 V c).flushed 3 t = ((cfg0.win 3).blk t).view.read (Elt F) (k0_pay3 (V c main_arg0) (V c main_arg2)) := by
  show (cfg0.win 3).cut (grid0.coords t) ((dat0 V c).after 3 t) = _
  rw [after0_3]
  unfold out0_3
  rw [View.canon_unit_zero origin]
  simp only [View.ld_unit_zero (S := S10000x128) origin, View.ld_unit_zero (S := S128x128) origin]
  rw [xblock_eq V c t, wblock_eq V c t]
  funext j
  show k0_pay3 (V c main_arg0) (V c main_arg2) j = k0_pay3 (V c main_arg0) (V c main_arg2) (((cfg0.win 3).blk t).view.emb j)
  refine congrArg _ ?_
  obtain ⟨-, -, -, -, -, -, e0, e1⟩ := index_zero t
  funext a; apply Fin.ext
  match a with
  | ⟨0, _⟩ => show (j 0).val = win0_3.index t (0 : Fin 2) * 10000 + 1 * (j 0).val; omega
  | ⟨1, _⟩ => show (j 1).val = win0_3.index t (1 : Fin 2) * 128 + 1 * (j 1).val; omega

/-- An index of the first output array lies in the point's block iff each coordinate lies in the block's range. -/
theorem mem_block_hi (t : Fin cfg0.N) (i : S10000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v0_0).slice (win0_2.rect t)).set ↔ _
  rw [View.set_slice_whole, Rect.mem_set_unit]
  exact Iff.rfl

theorem mem_block_lo (t : Fin cfg0.N) (i : S10000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v0_1).slice (win0_3.rect t)).set ↔ _
  rw [View.set_slice_whole, Rect.mem_set_unit]
  exact Iff.rfl

/-- After the region the first output array is the first stored value of the whole X and W. -/
theorem final_hi (c : Dev nD) : (dat0 V c).arrAt 2 cfg0.N = k0_pay2 (V c main_arg0) (V c main_arg2) :=
  (dat0 V c).arrAt_eq_of_cover 2 _ (fun t _ => flushed_hi V c t) (fun i => by
    refine ⟨t0_0, flush0_2 _, ?_⟩
    rw [mem_block_hi]
    obtain ⟨-, -, -, -, e0, e1, -⟩ := index_zero t0_0
    intro a
    match a with
    | ⟨0, _⟩ => show win0_2.index t0_0 (0 : Fin 2) * 10000 ≤ (i 0).val ∧ (i 0).val < win0_2.index t0_0 (0 : Fin 2) * 10000 + 10000; have h : (i 0).val < 10000 := (i 0).isLt; omega
    | ⟨1, _⟩ => show win0_2.index t0_0 (1 : Fin 2) * 128 ≤ (i 1).val ∧ (i 1).val < win0_2.index t0_0 (1 : Fin 2) * 128 + 128; have h : (i 1).val < 128 := (i 1).isLt; omega)

/-- After the region the second output array is the second stored value of the whole X and W. -/
theorem final_lo (c : Dev nD) : (dat0 V c).arrAt 3 cfg0.N = k0_pay3 (V c main_arg0) (V c main_arg2) :=
  (dat0 V c).arrAt_eq_of_cover 3 _ (fun t _ => flushed_lo V c t) (fun i => by
    refine ⟨t0_0, flush0_3 _, ?_⟩
    rw [mem_block_lo]
    obtain ⟨-, -, -, -, -, -, e0, e1⟩ := index_zero t0_0
    intro a
    match a with
    | ⟨0, _⟩ => show win0_3.index t0_0 (0 : Fin 2) * 10000 ≤ (i 0).val ∧ (i 0).val < win0_3.index t0_0 (0 : Fin 2) * 10000 + 10000; have h : (i 0).val < 10000 := (i 0).isLt; omega
    | ⟨1, _⟩ => show win0_3.index t0_0 (1 : Fin 2) * 128 ≤ (i 1).val ∧ (i 1).val < win0_3.index t0_0 (1 : Fin 2) * 128 + 128; have h : (i 1).val < 128 := (i 1).isLt; omega)

end Cert.KernelIdeal.SupportRegion

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.SplitLaw.lean ====
/-
  A graph-convolution layer  A · (X · W)  whose inner product S = X · W is handed on as a pair (S, S − S).

  On the extended reals a difference s − s is 0 exactly when s is a real number (at an infinity it is not), and a
  finite sum of products of real numbers is a real number. So when X and W hold real numbers every entry of S is
  real, the second member of the pair is the zero matrix, and

      ∑ k, A (p, k) · S (k, q)  +  ∑ k, A (p, k) · (S (k, q) − S (k, q))  =  ∑ k, A (p, k) · S (k, q)

  for ANY A: a product with 0 is 0 at every extended real, the sum of zeros is 0, and 0 is neutral for +.
-/
import Idealize.ShloMosaic.Lib.ValueIdx

noncomputable section

open scoped BigOperators

namespace Cert.SplitLaw

open Idealize.ShloMosaic Idealize.ShloMosaic.ValueIdx

/-- A finite sum of real numbers, taken in the extended reals, is the real sum. -/
theorem sum_coe {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A real number minus itself is 0 in the extended reals. -/
theorem sub_self_of_real {s : EReal} (h : ∃ r : ℝ, s = r) : s - s = 0 := by
  obtain ⟨r, rfl⟩ := h
  rw [← EReal.coe_sub, sub_self, EReal.coe_zero]

variable {n f g : ℕ}

/-- Entry (k, q) of the inner product X · W: the sum over the input features. -/
def support (x : (⟨2, ![n, f]⟩ : Shape).Idx → EReal) (w : (⟨2, ![f, g]⟩ : Shape).Idx → EReal) (k : Fin n) (q : Fin g) : EReal :=
  ∑ κ : Fin f, x (ix2 k κ) * w (ix2 κ q)

/-- Entry (p, q) of A · (X · W): the sum over the nodes. -/
def layer (x : (⟨2, ![n, f]⟩ : Shape).Idx → EReal) (a : (⟨2, ![n, n]⟩ : Shape).Idx → EReal)
    (w : (⟨2, ![f, g]⟩ : Shape).Idx → EReal) (p : Fin n) (q : Fin g) : EReal :=
  ∑ k : Fin n, a (ix2 p k) * support x w k q

/-- With real X and W every entry of X · W is a real number. -/
theorem support_real {x : (⟨2, ![n, f]⟩ : Shape).Idx → EReal} {w : (⟨2, ![f, g]⟩ : Shape).Idx → EReal}
    (hx : ∀ i, ∃ r : ℝ, x i = r) (hw : ∀ i, ∃ r : ℝ, w i = r) (k : Fin n) (q : Fin g) :
    ∃ r : ℝ, support x w k q = r := by
  choose x' hx' using hx
  choose w' hw' using hw
  refine ⟨∑ κ : Fin f, x' (ix2 k κ) * w' (ix2 κ q), ?_⟩
  unfold support
  simp only [hx', hw', ← EReal.coe_mul]
  exact sum_coe _ _

/-- The pair (S, S − S) aggregates to what S alone aggregates to, when S is real. -/
theorem split (a : (⟨2, ![n, n]⟩ : Shape).Idx → EReal) (s : Fin n → Fin g → EReal)
    (hs : ∀ k q, ∃ r : ℝ, s k q = r) (p : Fin n) (q : Fin g) :
    (∑ k : Fin n, a (ix2 p k) * s k q) + (∑ k : Fin n, a (ix2 p k) * (s k q - s k q))
      = ∑ k : Fin n, a (ix2 p k) * s k q := by
  have hz : ∀ k : Fin n, a (ix2 p k) * (s k q - s k q) = 0 := fun k => by
    rw [sub_self_of_real (hs k q), mul_zero]
  simp only [hz, Finset.sum_const_zero, add_zero]

end Cert.SplitLaw

end
-- ==== Proof.Payloads.lean ====
/-
  The two bodies' arithmetic at one entry, at the ideal values.

  First body: S = X · W (a product into a zero accumulator: the exact sum over the 128 input features); the first
  stored array is S itself (the change of format is the identity) and the second is S − S.
  Second body: for a slab of 400 rows of A, the slab times the first array plus the slab times the second, each product
  the exact sum over the 10000 nodes.
-/
import proofs.«122083_g64776696758729_cont_9to1_m_1304_10_alg».proof.Proof.Gen.KernelIdeal.Skeleton
import proofs.«122083_g64776696758729_cont_9to1_m_1304_10_alg».proof.Proof.LibPlainDot
import proofs.«122083_g64776696758729_cont_9to1_m_1304_10_alg».proof.Proof.SplitLaw
import Idealize.ShloMosaic.Lib.ValueIdx
import Idealize.ShloMosaic.Lib.Pipeline.Value

noncomputable section

open scoped BigOperators

namespace Cert.KernelIdeal.Payloads

open Cert.KernelIdeal Cert.KernelIdeal.Gen Idealize.ShloMosaic Idealize.ShloMosaic.ValueIdx

/-- The first body's product contracts the features axis: rows from X, columns from W. -/
theorem plain_support : Cert.PlainDot.Plain dot_S10000x128_S128x128_S10000x128_1_0_0_1_n_n := ⟨rfl, rfl, rfl, rfl, rfl, rfl⟩

/-- The second body's products contract the nodes axis: rows from the slab of A, columns from the support. -/
theorem plain_agg : Cert.PlainDot.Plain dot_S400x10000_S10000x128_S400x128_1_0_0_1_n_n := ⟨rfl, rfl, rfl, rfl, rfl, rfl⟩

/-- Entry (k, q) of the first body's product is the support matrix's. -/
theorem pay1_apply (x : Vec Ideal S10000x128 .f32) (w : Vec Ideal S128x128 .f32) (k : Fin 10000) (q : Fin 128) :
    k0_pay1 x w (ix2 k q) = Cert.SplitLaw.support x w k q := by
  unfold k0_pay1
  exact Cert.PlainDot.matmul_zero_apply plain_support rfl rfl _ x w k q

/-- The first stored array is the support matrix: the narrowing is the identity on the ideal values. -/
theorem pay2_apply (x : Vec Ideal S10000x128 .f32) (w : Vec Ideal S128x128 .f32) (k : Fin 10000) (q : Fin 128) :
    k0_pay2 x w (ix2 k q) = Cert.SplitLaw.support x w k q := by
  unfold k0_pay2
  exact pay1_apply x w k q

/-- The second stored array is the support matrix minus itself. -/
theorem pay3_apply (x : Vec Ideal S10000x128 .f32) (w : Vec Ideal S128x128 .f32) (k : Fin 10000) (q : Fin 128) :
    k0_pay3 x w (ix2 k q) = Cert.SplitLaw.support x w k q - Cert.SplitLaw.support x w k q := by
  unfold k0_pay3
  show k0_pay1 x w (ix2 k q) - k0_pay1 x w (ix2 k q) = _
  rw [pay1_apply]

/-- Entry (p, q) of the second body's result: the slab's row p against column q of each of the two arrays, added. -/
theorem agg_apply (a : Vec Ideal S400x10000 .f32) (sh sl : Vec Ideal S10000x128 .bf16) (p : Fin 400) (q : Fin 128) :
    k1_pay1 a sh sl (ix2 p q)
      = (∑ k : Fin 10000, a (ix2 p k) * sh (ix2 k q)) + ∑ k : Fin 10000, a (ix2 p k) * sl (ix2 k q) := by
  unfold k1_pay1
  rw [addf_apply, Cert.PlainDot.matmul_zero_apply plain_agg rfl rfl, Cert.PlainDot.matmul_zero_apply plain_agg rfl rfl]
  simp only [extf_apply, shapeCast_self]

end Cert.KernelIdeal.Payloads

end
-- ==== Proof.AggRegion.lean ====
/-
  The second region: 25 points, point t taking rows 400 t … 400 t + 399 of A (all 10000 columns) against the two
  whole arrays the first region left, and writing rows 400 t … 400 t + 399 of the result.

  Row p of the slab at point t is row 400 t + p of A, and entry (p, q) of the point's block of the result is entry
  (400 t + p, q) of the result; the 25 slabs of 400 rows tile the 10000 rows. So after the region the result array
  holds, at every (i, q),   ∑ k, A (i, k) · hi (k, q)  +  ∑ k, A (i, k) · lo (k, q).
-/
import proofs.«122083_g64776696758729_cont_9to1_m_1304_10_alg».proof.Proof.Gen.KernelIdeal.Frame
import proofs.«122083_g64776696758729_cont_9to1_m_1304_10_alg».proof.Proof.Payloads
import Idealize.ShloMosaic.Lib.Pipeline.Value
import Idealize.ShloMosaic.Lib.ValueIdx

set_option maxRecDepth 16384

noncomputable section

open scoped BigOperators

namespace Cert.KernelIdeal.AggRegion

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- A against the pair (hi, lo), entry by entry: row i of A against column q of each, added. -/
def aggOf (a : Vec Ideal S10000x10000 .f32) (hi lo : Vec Ideal S10000x128 .bf16) : S10000x128.Idx → EReal := fun i =>
  (∑ k : Fin 10000, a (ix2 (i 0) k) * hi (ix2 k (i 1))) + ∑ k : Fin 10000, a (ix2 (i 0) k) * lo (ix2 k (i 1))

/-- One point's body at (p, q), for a slab whose row p is row (i 0) of A, is the aggregate at i when i's column is q. -/
theorem slab_eq (a : Vec Ideal S10000x10000 .f32) (hi lo : Vec Ideal S10000x128 .bf16) (slab : Vec Ideal S400x10000 .f32)
    (i : S10000x128.Idx) (p : Fin 400) (q : Fin 128)
    (hrow : ∀ k : Fin 10000, slab (ix2 p k) = a (ix2 (i 0) k)) (hq : (i 1).val = q.val) :
    k1_pay1 slab hi lo (ix2 p q) = aggOf a hi lo i := by
  rw [Cert.KernelIdeal.Payloads.agg_apply]
  have hcol : ∀ k : Fin 10000, (ix2 k (i 1) : S10000x128.Idx) = ix2 k q := fun k => by
    funext d
    match d with
    | ⟨0, _⟩ => rfl
    | ⟨1, _⟩ => exact Fin.ext hq
  unfold aggOf
  simp only [hrow, hcol]

-- the buffers' contents when the region is entered
variable (V : (c : Dev nD) → (b : Ref sig .tc) → Buf (Elt Ideal) ((c : Thread nD τ).loc b))

theorem origin : (![0, 0] : Fin 2 → Nat) = fun _ => 0 := funext fun a => by fin_cases a <;> rfl

/-- The index maps over the grid: the slab of A moves with the result's block along the rows, every other block
    index is 0, and the result's row-block index stays below 25. -/
theorem index_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 24 :=
  (by decide +kernel : ∀ t : Fin grid1.N, _)

/-- Every one of the 25 row blocks of the result is some point's. -/
theorem index_onto : ∀ b : Fin 25, ∃ t : Fin cfg1.N, win1_3.index t = ![b.val, 0] :=
  (by decide +kernel : ∀ b : Fin 25, ∃ t : Fin grid1.N, win1_3.index t = ![b.val, 0])

/-- The block of the first array at every point is the whole array. -/
theorem hiblock_eq (c : Dev nD) (t : Fin cfg1.N) : (iblk1 V c 1 t : Vec Ideal S10000x128 .bf16) = V c main_v0_0 := by
  funext j
  show V c main_v0_0 (((cfg1.win 1).blk t).view.emb j) = V c main_v0_0 j
  refine congrArg _ ?_
  obtain ⟨-, -, e0, e1, -⟩ := index_facts t
  funext a; apply Fin.ext
  match a with
  | ⟨0, _⟩ => show win1_1.index t (0 : Fin 2) * 10000 + 1 * (j 0).val = (j 0).val; omega
  | ⟨1, _⟩ => show win1_1.index t (1 : Fin 2) * 128 + 1 * (j 1).val = (j 1).val; omega

/-- The block of the second array at every point is the whole array. -/
theorem loblock_eq (c : Dev nD) (t : Fin cfg1.N) : (iblk1 V c 2 t : Vec Ideal S10000x128 .bf16) = V c main_v0_1 := by
  funext j
  show V c main_v0_1 (((cfg1.win 2).blk t).view.emb j) = V c main_v0_1 j
  refine congrArg _ ?_
  obtain ⟨-, -, -, -, e0, e1, -⟩ := index_facts t
  funext a; apply Fin.ext
  match a with
  | ⟨0, _⟩ => show win1_2.index t (0 : Fin 2) * 10000 + 1 * (j 0).val = (j 0).val; omega
  | ⟨1, _⟩ => show win1_2.index t (1 : Fin 2) * 128 + 1 * (j 1).val = (j 1).val; omega

/-- What point t writes back is block t of the aggregate of the arrays as the region finds them. -/
theorem flushed_eq (c : Dev nD) (t : Fin cfg1.N) :
    (dat1 V c).flushed 3 t = ((cfg1.win 3).blk t).view.read (Elt Ideal) (aggOf (V c main_arg1) (V c main_v0_0) (V c main_v0_1)) := by
  show (cfg1.win 3).cut (grid1.coords t) ((dat1 V c).after 3 t) = _
  rw [after1_3]
  unfold out1_3
  rw [View.canon_unit_zero origin]
  simp only [View.ld_unit_zero (S := S400x10000) origin, View.ld_unit_zero (S := S10000x128) origin]
  rw [hiblock_eq V c t, loblock_eq V c t]
  obtain ⟨e0, e1, -, -, -, -, e3, -⟩ := index_facts t
  funext j
  obtain ⟨p, q, rfl⟩ : ∃ (p : Fin 400) (q : Fin 128), j = ix2 p q := ⟨j 0, j 1, eq_ix2 j⟩
  show k1_pay1 (iblk1 V c 0 t) (V c main_v0_0) (V c main_v0_1) (ix2 p q)
    = aggOf (V c main_arg1) (V c main_v0_0) (V c main_v0_1) (((cfg1.win 3).blk t).view.emb (ix2 p q))
  refine slab_eq (V c main_arg1) (V c main_v0_0) (V c main_v0_1) (iblk1 V c 0 t) (((cfg1.win 3).blk t).view.emb (ix2 p q)) p q ?_ ?_
  · intro k
    show V c main_arg1 (((cfg1.win 0).blk t).view.emb (ix2 p k)) = V c main_arg1 (ix2 ((((cfg1.win 3).blk t).view.emb (ix2 p q)) 0) k)
    refine congrArg _ ?_
    funext a; apply Fin.ext
    match a with
    | ⟨0, _⟩ => show win1_0.index t (0 : Fin 2) * 400 + 1 * p.val = win1_3.index t (0 : Fin 2) * 400 + 1 * p.val; omega
    | ⟨1, _⟩ => show win1_0.index t (1 : Fin 2) * 10000 + 1 * k.val = k.val; omega
  · show win1_3.index t (1 : Fin 2) * 128 + 1 * q.val = q.val
    omega

/-- An index of the result array lies in point t's block iff each coordinate lies in the block's range. -/
theorem mem_block (t : Fin cfg1.N) (i : S10000x128.Idx) :
    i ∈ ((cfg1.win 3).blk t).view.set ↔ ∀ a : Fin 2, win1_3.index t a * S400x128.size a ≤ (i a).val ∧ (i a).val < win1_3.index t a * S400x128.size a + S400x128.size a := by
  show i ∈ ((View.whole main_v1).slice (win1_3.rect t)).set ↔ _
  rw [View.set_slice_whole, Rect.mem_set_unit]
  exact Iff.rfl

/-- After the region the result array is the aggregate of the arrays as the region found them: the 25 blocks of 400
    rows tile its 10000 rows (row i is in block i / 400). -/
theorem final (c : Dev nD) : (dat1 V c).arrAt 3 cfg1.N = aggOf (V c main_arg1) (V c main_v0_0) (V c main_v0_1) :=
  (dat1 V c).arrAt_eq_of_cover 3 _ (fun t _ => flushed_eq V c t) (fun i => by
    have hi0 : (i 0).val < 10000 := (i 0).isLt
    have hi1 : (i 1).val < 128 := (i 1).isLt
    obtain ⟨t, ht⟩ := index_onto ⟨(i 0).val / 400, by omega⟩
    have q0 : win1_3.index t (0 : Fin 2) = (i 0).val / 400 := congrFun ht 0
    have q1 : win1_3.index t (1 : Fin 2) = 0 := congrFun ht 1
    refine ⟨t, flush1_3 t, ?_⟩
    rw [mem_block]
    intro a
    match a with
    | ⟨0, _⟩ => show win1_3.index t (0 : Fin 2) * 400 ≤ (i 0).val ∧ (i 0).val < win1_3.index t (0 : Fin 2) * 400 + 400; omega
    | ⟨1, _⟩ => show win1_3.index t (1 : Fin 2) * 128 ≤ (i 1).val ∧ (i 1).val < win1_3.index t (1 : Fin 2) * 128 + 128; omega)

end Cert.KernelIdeal.AggRegion

end
-- ==== Proof.KernelValue.lean ====
/-
  The kernel's result array after the run, at the ideal values: the layer A · (X · W).

  Through the run: the first region reads X and W as launched and leaves (S, S − S) with S = X · W; the second
  region reads A as launched (the first region does not touch it) and those two arrays, and leaves
  ∑ k, A (i, k) · S (k, q) + ∑ k, A (i, k) · (S (k, q) − S (k, q)). With X and W real, S is real and the second sum
  vanishes, which leaves the layer.
-/
import proofs.«122083_g64776696758729_cont_9to1_m_1304_10_alg».proof.Proof.KernelRun
import proofs.«122083_g64776696758729_cont_9to1_m_1304_10_alg».proof.Proof.SupportRegion
import proofs.«122083_g64776696758729_cont_9to1_m_1304_10_alg».proof.Proof.AggRegion
import proofs.«122083_g64776696758729_cont_9to1_m_1304_10_alg».proof.Proof.Payloads
import proofs.«122083_g64776696758729_cont_9to1_m_1304_10_alg».proof.Proof.SplitLaw

set_option maxRecDepth 16384

noncomputable section

open scoped BigOperators

namespace Cert.KernelIdeal.KernelValue

open Cert.KernelIdeal Cert.KernelIdeal.Gen Idealize.ShloMosaic Idealize.ShloMosaic.TcCoe Idealize.SL.Sem
open Idealize.ShloMosaic.ValueIdx

/-- The aggregate of A against the pair the first body stores is the layer, when X and W hold real numbers. -/
theorem agg_pair_eq (x : Vec Ideal S10000x128 .f32) (a : Vec Ideal S10000x10000 .f32) (w : Vec Ideal S128x128 .f32)
    (hx : ∀ i, ∃ r : ℝ, x i = r) (hw : ∀ i, ∃ r : ℝ, w i = r) :
    Cert.KernelIdeal.AggRegion.aggOf a (k0_pay2 x w) (k0_pay3 x w) = fun i => Cert.SplitLaw.layer x a w (i 0) (i 1) := by
  funext i
  obtain ⟨p, q, rfl⟩ : ∃ (p : Fin 10000) (q : Fin 128), i = ix2 p q := ⟨i 0, i 1, eq_ix2 i⟩
  show (∑ k : Fin 10000, a (ix2 p k) * k0_pay2 x w (ix2 k q)) + (∑ k : Fin 10000, a (ix2 p k) * k0_pay3 x w (ix2 k q))
    = Cert.SplitLaw.layer x a w p q
  simp only [Cert.KernelIdeal.Payloads.pay2_apply, Cert.KernelIdeal.Payloads.pay3_apply]
  exact Cert.SplitLaw.split a (Cert.SplitLaw.support x w) (Cert.SplitLaw.support_real hx hw) p q

variable (m : (ℓ : Loc nD τ sig) → Buf (Elt Ideal) ℓ) (ρ : Dev nD → PrngReg)

/-- The result array at the run's last boundary, from the launch memory: the layer of the three arguments. -/
theorem final (c : Dev nD)
    (hx : ∀ i : S10000x128.Idx, ∃ r : ℝ, m ((c : Thread nD τ).loc main_arg0) i = (r : EReal))
    (hw : ∀ i : S128x128.Idx, ∃ r : ℝ, m ((c : Thread nD τ).loc main_arg2) i = (r : EReal)) :
    W2 m ρ c (Proc.devRef .tc main_v1)
      = fun i => Cert.SplitLaw.layer (m ((c : Thread nD τ).loc main_arg0)) (m ((c : Thread nD τ).loc main_arg1)) (m ((c : Thread nD τ).loc main_arg2)) (i 0) (i 1) := by
  have hA : V1 m ρ c main_arg1 = m ((c : Thread nD τ).loc main_arg1) := W1_of_ne m ρ c main_arg1 (by decide)
  have hhi : V1 m ρ c main_v0_0 = k0_pay2 (m ((c : Thread nD τ).loc main_arg0)) (m ((c : Thread nD τ).loc main_arg2)) :=
    (W1_arr m ρ c 2).trans (Cert.KernelIdeal.SupportRegion.final_hi (V0 m ρ) c)
  have hlo : V1 m ρ c main_v0_1 = k0_pay3 (m ((c : Thread nD τ).loc main_arg0)) (m ((c : Thread nD τ).loc main_arg2)) :=
    (W1_arr m ρ c 3).trans (Cert.KernelIdeal.SupportRegion.final_lo (V0 m ρ) c)
  refine ((W2_arr m ρ c 3).trans (Cert.KernelIdeal.AggRegion.final (V1 m ρ) c)).trans ?_
  rw [hA, hhi, hlo]
  exact agg_pair_eq _ _ _ hx hw

end Cert.KernelIdeal.KernelValue

end
-- ==== Proof.RefValue.lean ====
/-
  The reference at an entry: two plain matrix products on the host, A · (X · W).

  Each product is the exact sum over its contracted axis at the ideal values, so entry (p, q) of the result is
  ∑ k, A (p, k) · ∑ κ, X (k, κ) · W (κ, q): the layer of the specification.
-/
import proofs.«122083_g64776696758729_cont_9to1_m_1304_10_alg».proof.Defs
import proofs.«122083_g64776696758729_cont_9to1_m_1304_10_alg».proof.Proof.Gen.ReferenceIdeal.Run
import proofs.«122083_g64776696758729_cont_9to1_m_1304_10_alg».proof.Proof.LibPlainDot
import proofs.«122083_g64776696758729_cont_9to1_m_1304_10_alg».proof.Proof.SplitLaw

noncomputable section

open scoped BigOperators

namespace Cert.ReferenceIdeal.RefValue

open Cert.ReferenceIdeal Cert.ReferenceIdeal.Gen Idealize.ShloMosaic Idealize.ShloMosaic.ValueIdx

/-- The inner product contracts the features axis. -/
theorem plain_inner : Cert.PlainDot.Plain dot_S10000x128_S128x128_S10000x128_1_0_0_1_n_n := ⟨rfl, rfl, rfl, rfl, rfl, rfl⟩

/-- The outer product contracts the nodes axis. -/
theorem plain_outer : Cert.PlainDot.Plain dot_S10000x10000_S10000x128_S10000x128_1_0_0_1_n_n := ⟨rfl, rfl, rfl, rfl, rfl, rfl⟩

/-- The reference's result term is the layer, entry by entry. -/
theorem result_eq (x : FVec Ideal S10000x128 .f32) (a : FVec Ideal S10000x10000 .f32) (w : FVec Ideal S128x128 .f32) :
    Host.dotGeneral dot_S10000x10000_S10000x128_S10000x128_1_0_0_1_n_n none a
        (Host.dotGeneral dot_S10000x128_S128x128_S10000x128_1_0_0_1_n_n none x w)
      = fun i => Cert.SplitLaw.layer x a w (i 0) (i 1) := by
  funext i
  obtain ⟨p, q, rfl⟩ : ∃ (p : Fin 10000) (q : Fin 128), i = ix2 p q := ⟨i 0, i 1, eq_ix2 i⟩
  rw [Cert.PlainDot.dotGeneral_apply plain_outer rfl rfl]
  show _ = Cert.SplitLaw.layer x a w p q
  unfold Cert.SplitLaw.layer
  refine Finset.sum_congr rfl fun k _ => ?_
  rw [Cert.PlainDot.dotGeneral_apply plain_inner rfl rfl]
  rfl

end Cert.ReferenceIdeal.RefValue

end
-- ==== Proof.Finite.lean ====
/-
  The precondition read back: each of the three inputs holds real numbers.

  The precondition is the conjunction, over the three inputs, of "every entry has |x| < +∞". An extended real whose
  absolute value max x (−x) lies below +∞ is neither +∞ nor −∞ (−(−∞) = +∞), so it is a real number.
-/
import proofs.«122083_g64776696758729_cont_9to1_m_1304_10_alg».proof.Pre_finite_inputs
import Idealize.ShloMosaic.Lib.ReduceAll
import Idealize.ShloMosaic.Lib.ValueIdx
import Idealize.ShloMosaic.PureOps.Ideal.Laws

namespace Cert.FiniteInputs

open Idealize.ShloMosaic Idealize.ShloMosaic.ValueIdx Cert.Pre_finite_inputs

/-- An extended real whose absolute value is below +∞ is a real number. -/
theorem real_of_abs_lt_top (x : EReal) (h : Ideal.cmp .olt (max x (-x)) ⊤ = 1#1) : ∃ r : ℝ, x = r := by
  induction x using EReal.rec with
  | bot => simp [Ideal.cmp] at h
  | top => simp [Ideal.cmp] at h
  | coe r => exact ⟨r, rfl⟩

/-- The all-ones exponent with a zero fraction is +∞. -/
theorem inf_word : Ideal.ofBits .f32 0x7F800000#32 = ⊤ := by simp [Ideal.ofBits, Ideal.ieee]

instance : Subsingleton S_.Idx := ⟨fun a b => funext fun d => d.elim0⟩

variable [Facts]

/-- Under the precondition every entry of every input is a real number. -/
theorem all_real (x0 : FVec Ideal S10000x128 .f32) (x1 : FVec Ideal S10000x10000 .f32) (x2 : FVec Ideal S128x128 .f32)
    (h : fn (F := Ideal) x0 x1 x2 = fun _ => 1#1) :
    (∀ i, ∃ r : ℝ, x0 i = r) ∧ (∀ i, ∃ r : ℝ, x1 i = r) ∧ (∀ i, ∃ r : ℝ, x2 i = r) := by
  have h0 := congrFun h ix0
  dsimp only [fn] at h0
  obtain ⟨h01, h2⟩ := IntOp.andi_eq_one.1 h0
  obtain ⟨h0', h1'⟩ := IntOp.andi_eq_one.1 h01
  refine ⟨fun i => ?_, fun i => ?_, fun i => ?_⟩
  · have e := Host.reduce_andi_all _ _ _ _ _ h0' i
    change Ideal.cmp .olt (max (x0 i) (-(x0 i))) (Ideal.ofBits .f32 0x7F800000#32) = 1#1 at e
    rw [inf_word] at e
    exact real_of_abs_lt_top _ e
  · have e := Host.reduce_andi_all _ _ _ _ _ h1' i
    change Ideal.cmp .olt (max (x1 i) (-(x1 i))) (Ideal.ofBits .f32 0x7F800000#32) = 1#1 at e
    rw [inf_word] at e
    exact real_of_abs_lt_top _ e
  · have e := Host.reduce_andi_all _ _ _ _ _ h2 i
    change Ideal.cmp .olt (max (x2 i) (-(x2 i))) (Ideal.ofBits .f32 0x7F800000#32) = 1#1 at e
    rw [inf_word] at e
    exact real_of_abs_lt_top _ e

end Cert.FiniteInputs
-- ==== Proof.lean ====
/-
  A graph-convolution layer  out = A · (X · W)  computed in two steps against the same layer as two host products.

  The kernel first forms S = X · W and hands it on as a pair: S narrowed, and S minus the narrowed S widened back,
  narrowed. At the ideal values a change of format is the identity, so the pair is (S, S − S). The second step
  takes slabs of 400 rows of A and adds the slab's product with each member of the pair, so the kernel ends at
      ∑ k, A (i, k) · S (k, q)  +  ∑ k, A (i, k) · (S (k, q) − S (k, q)).
  The reference ends at ∑ k, A (i, k) · S (k, q). The two agree because, the inputs being finite, S is a real number
  at every entry, S − S = 0 there, a product with 0 is 0 at every extended real, and adding 0 changes nothing. The
  precondition is used exactly there (for X and W; nothing is asked of A).

  The frames of the two kernel programs are the generated ones; the reference's frame is its generated run with the
  result dropped; the one rewrite of the idealization (a narrowing followed by a widening is the identity at the ideal
  values) is its rule's statement.
-/
import proofs.«122083_g64776696758729_cont_9to1_m_1304_10_alg».proof.Defs
import proofs.«122083_g64776696758729_cont_9to1_m_1304_10_alg».proof.Proof.Gen.Kernel
import proofs.«122083_g64776696758729_cont_9to1_m_1304_10_alg».proof.Proof.Gen.Kernel.Frame
import proofs.«122083_g64776696758729_cont_9to1_m_1304_10_alg».proof.Proof.Gen.KernelIdeal
import proofs.«122083_g64776696758729_cont_9to1_m_1304_10_alg».proof.Proof.Gen.KernelIdeal.Frame
import proofs.«122083_g64776696758729_cont_9to1_m_1304_10_alg».proof.Proof.Gen.ReferenceIdeal
import proofs.«122083_g64776696758729_cont_9to1_m_1304_10_alg».proof.Proof.Gen.ReferenceIdeal.Run
import proofs.«122083_g64776696758729_cont_9to1_m_1304_10_alg».proof.Proof.Gen.Pre_finite_inputs
import proofs.«122083_g64776696758729_cont_9to1_m_1304_10_alg».proof.Proof.KernelRun
import proofs.«122083_g64776696758729_cont_9to1_m_1304_10_alg».proof.Proof.KernelValue
import proofs.«122083_g64776696758729_cont_9to1_m_1304_10_alg».proof.Proof.RefValue
import proofs.«122083_g64776696758729_cont_9to1_m_1304_10_alg».proof.Proof.Finite
import proofs.«122083_g64776696758729_cont_9to1_m_1304_10_alg».proof.Proof.SplitLaw

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Narrowing to the 16-bit format and widening back is the identity at the ideal values. -/
theorem preserves : Cert.preserves_Kernel_KernelIdeal := IdealRules.truncf_extf.statement _ .f32 .bf16

/-- Both programs end with the result array at the layer A · (X · W) of the (agreeing) arguments: the kernel by its
    two regions and the vanishing of S − S under the precondition, the reference by its two products. -/
theorem algebraic : Cert.algebraic_KernelIdeal_ReferenceIdeal := by
  intro m ρ m' ρ' hpre hagree
  refine ⟨fun c i => Cert.SplitLaw.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (i 0) (i 1), ?_, ?_⟩
  · refine (θ_run Cert.KernelIdeal.defs _ _).mono (fun r h c => ⟨(h c).1.trans ?_, (h c).2⟩)
      (Cert.KernelIdeal.Run.run_main (F := Ideal) m ρ)
    obtain ⟨hx, -, hw⟩ := Cert.FiniteInputs.all_real _ _ _ (hpre c)
    exact Cert.KernelIdeal.KernelValue.final m ρ c hx hw
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2]
    exact Cert.ReferenceIdeal.RefValue.result_eq _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
